-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12x8192x1024 : Shape := ⟨3, ![12, 8192, 1024]⟩
abbrev S64x1024 : Shape := ⟨2, ![64, 1024]⟩
abbrev S64 : Shape := ⟨1, ![64]⟩
abbrev S_ : Shape := ⟨0, ![]⟩

class Facts : Prop where
  bcast_S_S12x8192x1024 : S_.BroadcastsInDim S12x8192x1024 (![] : Fin 0 → Fin S12x8192x1024.rank)
  reducesTo_S12x8192x1024_S_d0_1_2 : S12x8192x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S12x8192x1024 .f32) (main_arg1 : FVec F S64x1024 .f32) (main_arg2 : FVec F S64 .f32) : IVec S_ 1 :=
  let main_v0 : FVec F S12x8192x1024 .f32 := Host.absf main_arg0
  let main_cst : FVec F S_ .f32 := constant S_ .f32 0x7F800000#32
  let main_v1 : FVec F S12x8192x1024 .f32 := broadcastInDim S12x8192x1024 ![] bcast_S_S12x8192x1024 main_cst
  let main_v2 : IVec S12x8192x1024 1 := cmpf .olt main_v0 main_v1
  let main_c : IVec S_ 1 := constantI S_ 1 1#1
  let main_v3 : IVec S_ 1 := (fun x v => Host.reduce IntOp.andi x v reducesTo_S12x8192x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S12x8192x1024 : Shape := ⟨3, ![12, 8192, 1024]⟩
abbrev S64x1024 : Shape := ⟨2, ![64, 1024]⟩
abbrev S64 : Shape := ⟨1, ![64]⟩
abbrev S1x64 : Shape := ⟨2, ![1, 64]⟩
abbrev S8192x64 : Shape := ⟨2, ![8192, 64]⟩
abbrev S12x256x1024 : Shape := ⟨3, ![12, 256, 1024]⟩
abbrev S256x64 : Shape := ⟨2, ![256, 64]⟩
abbrev S256x1024 : Shape := ⟨2, ![256, 1024]⟩
abbrev S1024x64 : Shape := ⟨2, ![1024, 64]⟩

abbrev nBuf : Space → Nat
  | .hbm => 5
  | .vmem => 6
  | .smem => 0
  | _ => 0

abbrev bufTy : (tb : Table) → Fin (tcTables nBuf tb) → BufTy
  | .hbm, ⟨0, _⟩ => ⟨S12x8192x1024, .f32⟩
  | .hbm, ⟨1, _⟩ => ⟨S64x1024, .f32⟩
  | .hbm, ⟨2, _⟩ => ⟨S64, .f32⟩
  | .hbm, ⟨3, _⟩ => ⟨S1x64, .f32⟩
  | .hbm, ⟨4, _⟩ => ⟨S8192x64, .f32⟩
  | .local _ .vmem, ⟨0, _⟩ => ⟨S12x256x1024, .f32⟩
  | .local _ .vmem, ⟨1, _⟩ => ⟨S12x256x1024, .f32⟩
  | .local _ .vmem, ⟨2, _⟩ => ⟨S64x1024, .f32⟩
  | .local _ .vmem, ⟨3, _⟩ => ⟨S1x64, .f32⟩
  | .local _ .vmem, ⟨4, _⟩ => ⟨S256x64, .f32⟩
  | .local _ .vmem, ⟨5, _⟩ => ⟨S256x64, .f32⟩
  | _, _ => ⟨S12x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S12x256x1024_S12x256x1024_0_0_0 : ∀ a, (![0, 0, 0] : Fin 3 → Nat) a + S12x256x1024.size a ≤ S12x256x1024.size a
  h_S12x256x1024 : 0 < S12x256x1024.numel
  reduces_S12x256x1024_S256x1024 : S12x256x1024.Reduces [0] S256x1024
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  transposes_S64x1024_p1_0_S1024x64 : S64x1024.Transposes [1, 0] S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  dot_S256x1024_S1024x64_S256x64_1_0_0_1_n_n_wf : DotDims.WF S256x1024 S1024x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12x256x1024.size a ≤ S12x8192x1024.size a
  hwx0_0 : ∀ i : grid0.Coords, EltTy.bits .f32 = 32 ∨ (Rect.block (s := S12x8192x1024) S12x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S8192x64.size a
  hwx0_3 : ∀ i : grid0.Coords, EltTy.bits .f32 = 32 ∨ (Rect.block (s := S8192x64) S256x64.size (cc0_transform_3 i) (hinb0_3 i)).WholeWords (EltTy.packing .f32)

variable [Facts₀]

def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev win0_0 : Pipeline.Window sig grid0 :=
  Pipeline.Window.ofSpec (Memref.whole main_arg0) S12x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S12x8192x1024 : Shape := ⟨3, ![12, 8192, 1024]⟩
abbrev S64x1024 : Shape := ⟨2, ![64, 1024]⟩
abbrev S64 : Shape := ⟨1, ![64]⟩
abbrev S_ : Shape := ⟨0, ![]⟩
abbrev S8192x1024 : Shape := ⟨2, ![8192, 1024]⟩
abbrev S8192x64 : Shape := ⟨2, ![8192, 64]⟩
abbrev S1x64 : Shape := ⟨2, ![1, 64]⟩

abbrev nBuf : Space → Nat
  | .hbm => 13
  | .vmem => 0
  | .smem => 0
  | _ => 0

abbrev bufTy : (tb : Table) → Fin (tcTables nBuf tb) → BufTy
  | .hbm, ⟨0, _⟩ => ⟨S12x8192x1024, .f32⟩
  | .hbm, ⟨1, _⟩ => ⟨S64x1024, .f32⟩
  | .hbm, ⟨2, _⟩ => ⟨S64, .f32⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x64, .f32⟩
  | .hbm, ⟨9, _⟩ => ⟨S1x64, .f32⟩
  | .hbm, ⟨10, _⟩ => ⟨S8192x64, .f32⟩
  | .hbm, ⟨11, _⟩ => ⟨S8192x64, .f32⟩
  | .hbm, ⟨12, _⟩ => ⟨S8192x64, .f32⟩
  | _, _ => ⟨S12x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  reducesTo_S12x8192x1024_S8192x1024_d0 : S12x8192x1024.ReducesTo [0] S8192x1024
  h_S_ : 0 < S_.numel
  bcast_S_S8192x1024 : S_.BroadcastsInDim S8192x1024 (![] : Fin 0 → Fin S8192x1024.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x1024_S64x1024_S8192x64_1_1_0_0_n_n_wf : DotDims.WF S8192x1024 S64x1024 S8192x64 [1] [1] [0] [0] [] []

variable [Facts₀]

def dot_S8192x1024_S64x1024_S8192x64_1_1_0_0_n_n : DotDims S8192x1024 S64x1024 S8192x64 where
  lhsContracting := [1]
  rhsContracting := [1]
  lhsNonContracting := [0]
  rhsNonContracting := [0]
  lhsBatch := []
  rhsBatch := []
  wf := dot_S8192x1024_S64x1024_S8192x64_1_1_0_0_n_n_wf

class Facts : Prop extends Facts₀ where

variable [Facts]
-- ==== Proof.Spec.lean ====
/-
  The function both programs compute, index by index, on the extended reals.

  For an input x : [12, 8192, 1024], a weight W : [64, 1024] and a bias b : [64], the result at row r and
  column k is
      tanh ( (∑ d, mean_r,d · W k d) + b k ),     mean_r,d = (∑ l, x l r d) / 12,
  the mean over the 12 layers taken FIRST and the 1024-term dot product with W's row k after it. Nothing here
  rearranges a sum or moves a factor across one, so no finiteness of the inputs is needed: the two programs are
  this one term, read through different layouts.
-/
import Idealize.ShloMosaic.PureOps.Ideal
import Idealize.ShloMosaic.Lib.ValueIdx

noncomputable section

namespace Cert.LayerMeanProj

open Idealize.ShloMosaic Idealize.ShloMosaic.ValueIdx

/-- The divisor of the mean: the f32 pattern of 12.0, the same word in both programs, never evaluated. -/
abbrev twelve : EReal := Ideal.ofBits .f32 0x41400000#32

/-- The mean over the 12 layers of the entry at row `r`, feature `d`. -/
def layerMean (x : (⟨3, ![12, 8192, 1024]⟩ : Shape).Idx → EReal) (r : Fin 8192) (d : Fin 1024) : EReal :=
  Ideal.div (∑ l : Fin 12, x (ix3 l r d)) twelve

/-- The whole result array: the layer mean projected on each of W's 64 rows, the bias added, then tanh. -/
def G (x : (⟨3, ![12, 8192, 1024]⟩ : Shape).Idx → EReal) (W : (⟨2, ![64, 1024]⟩ : Shape).Idx → EReal)
    (b : (⟨1, ![64]⟩ : Shape).Idx → EReal) : (⟨2, ![8192, 64]⟩ : Shape).Idx → EReal := fun i =>
  Ideal.tanh ((∑ d : Fin 1024, layerMean x (i 0) d * W (ix2 (i 1) d)) + b (ix1 (i 1)))

theorem G_apply (x : (⟨3, ![12, 8192, 1024]⟩ : Shape).Idx → EReal) (W : (⟨2, ![64, 1024]⟩ : Shape).Idx → EReal)
    (b : (⟨1, ![64]⟩ : Shape).Idx → EReal) (r : Fin 8192) (k : Fin 64) :
    G x W b (ix2 r k) = Ideal.tanh ((∑ d : Fin 1024, layerMean x r d * W (ix2 k d)) + b (ix1 k)) := rfl

end Cert.LayerMeanProj

end
-- ==== Proof.RefValue.lean ====
/-
  The reference, read index by index, is the specification `G`.

  The reference sums x over its leading axis into an [8192, 1024] array (from the initial value 0), divides every
  entry by 12, contracts the feature axis against W's feature axis (`bd,kd->bk`), adds b broadcast along the rows and
  applies tanh. At result index (r, k) the stages read: the sum's operand at (l, r, d), W at (k, d), b at k.
-/
import proofs.«153851_j87497073754448_1_alg».proof.Proof.Gen.ReferenceIdeal.Read
import proofs.«153851_j87497073754448_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.LayerMeanProj

/-- The layer sum feeding the dot product's left factor at (r, d) reads x at (l, r, d). -/
theorem idx_x (i : S8192x64.Idx) (d : Fin 1024) (l : Fin 12) :
    idx_main_v0 (lidx_main_v3 i d) l = ix3 l (i 0) d :=
  funext fun a => Fin.ext (by match a with | ⟨0, _⟩ => rfl | ⟨1, _⟩ => rfl | ⟨2, _⟩ => rfl)

/-- The dot product's right factor at (r, k), term d, is W at (k, d). -/
theorem idx_w (i : S8192x64.Idx) (d : Fin 1024) : ridx_main_v3 i d = ix2 (i 1) d :=
  funext fun a => Fin.ext (by match a with | ⟨0, _⟩ => rfl | ⟨1, _⟩ => rfl)

/-- The bias, broadcast to one row and then to every row, reads b at the column. -/
theorem idx_b (i : S8192x64.Idx) : idx_main_v4 (idx_main_v5 i) = ix1 (i 1) :=
  funext fun a => Fin.ext (by match a with | ⟨0, _⟩ => rfl)

/-- The reference's last stage is `G` of the three arguments. -/
theorem result_eq (x0 : (⟨S12x8192x1024, .f32⟩ : BufTy).Contents (Elt Ideal))
    (x1 : (⟨S64x1024, .f32⟩ : BufTy).Contents (Elt Ideal)) (x2 : (⟨S64, .f32⟩ : BufTy).Contents (Elt Ideal)) :
    val_main_v7 (F := Ideal) x0 x1 x2 = G x0 x1 x2 := by
  funext i
  rw [val_main_v7_apply, val_main_v6_apply, val_main_v3_apply, val_main_v5_apply, val_main_v4_apply]
  simp only [val_main_v2_apply, val_main_v0_apply, val_main_v1_apply, val_main_cst_0_apply, val_main_cst_apply,
    idx_x, idx_w, idx_b, Ideal.hostDivf_def, Ideal.hostUnary_tanh_def, Ideal.addf_def, Ideal.ofBits_def,
    Ideal.ofBits_zero_f32, zero_add]
  rfl

end Cert.ReferenceIdeal.RefValue

end
-- ==== Proof.KernelPay.lean ====
/-
  What the kernel body stores, read at one entry of its [256, 64] output block.

  From a [12, 256, 1024] block of x, the whole of W and the one-row bias, the body sums the 12 layers, divides by
  12, multiplies the [256, 1024] mean by W transposed into a zero accumulator, adds the bias row to every row
  and applies tanh. The narrowing of both factors to a shorter float format is the identity on the extended
  reals. At entry (p, q) of the block this is
      tanh ( (∑ d, ((∑ l, x l p d) / 12) · W q d) + b 0 q ).
-/
import proofs.«153851_j87497073754448_1_alg».proof.Proof.Gen.KernelIdeal.Skeleton
import proofs.«153851_j87497073754448_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen
open Idealize.ShloMosaic Idealize.ShloMosaic.ValueIdx Cert.LayerMeanProj

/-! ## The block product's operand indices: rows of the mean against columns of W transposed -/

theorem lhs_row (i : S256x64.Idx) (k : dot_S256x1024_S1024x64_S256x64_1_0_0_1_n_n.contr.Idx) :
    (dot_S256x1024_S1024x64_S256x64_1_0_0_1_n_n.lhsIdx i k 0).val = (i 0).val := by
  unfold DotDims.lhsIdx
  rw [dif_neg (show ¬(0 : Fin S256x1024.rank) ∈ dot_S256x1024_S1024x64_S256x64_1_0_0_1_n_n.lhsBatch by decide), dif_pos (show (0 : Fin S256x1024.rank) ∈ dot_S256x1024_S1024x64_S256x64_1_0_0_1_n_n.lhsNonContracting by decide)]
  rfl
theorem lhs_feat (i : S256x64.Idx) (k : dot_S256x1024_S1024x64_S256x64_1_0_0_1_n_n.contr.Idx) :
    (dot_S256x1024_S1024x64_S256x64_1_0_0_1_n_n.lhsIdx i k 1).val = (k ⟨0, by decide⟩).val :=
  dot_S256x1024_S1024x64_S256x64_1_0_0_1_n_n.lhsIdx_val_of_single rfl i k
theorem rhs_feat (i : S256x64.Idx) (k : dot_S256x1024_S1024x64_S256x64_1_0_0_1_n_n.contr.Idx) :
    (dot_S256x1024_S1024x64_S256x64_1_0_0_1_n_n.rhsIdx i k 0).val = (k ⟨0, by decide⟩).val :=
  dot_S256x1024_S1024x64_S256x64_1_0_0_1_n_n.rhsIdx_val_of_single rfl i k
theorem rhs_col (i : S256x64.Idx) (k : dot_S256x1024_S1024x64_S256x64_1_0_0_1_n_n.contr.Idx) :
    (dot_S256x1024_S1024x64_S256x64_1_0_0_1_n_n.rhsIdx i k 1).val = (i 1).val := by
  unfold DotDims.rhsIdx
  rw [dif_neg (show ¬(1 : Fin S1024x64.rank) ∈ dot_S256x1024_S1024x64_S256x64_1_0_0_1_n_n.rhsBatch by decide), dif_pos (show (1 : Fin S1024x64.rank) ∈ dot_S256x1024_S1024x64_S256x64_1_0_0_1_n_n.rhsNonContracting by decide)]
  rfl

/-- The block product into the zero accumulator, at (p, q): the sum over the 1024 features of the left factor's
    row p against the right factor's column q. -/
theorem blockProduct_at (A : FVec Ideal S256x1024 .bf16) (B : FVec Ideal S1024x64 .bf16) (p : Fin 256) (q : Fin 64) :
    matmul dot_S256x1024_S1024x64_S256x64_1_0_0_1_n_n none A B (constant S256x64 .f32 0x00000000#32) (ix2 p q)
      = ∑ d : Fin 1024, A (ix2 p d) * B (ix2 d q) := by
  simp only [matmul]
  rw [Ideal.matmul_constant_zero_apply, ← Equiv.sum_comp (contrEquiv1 dot_S256x1024_S1024x64_S256x64_1_0_0_1_n_n 1024 rfl rfl).symm]
  refine Finset.sum_congr rfl fun d _ => ?_
  have hd := contrEquiv1_symm_val dot_S256x1024_S1024x64_S256x64_1_0_0_1_n_n 1024 rfl rfl d
  have el : dot_S256x1024_S1024x64_S256x64_1_0_0_1_n_n.lhsIdx (ix2 p q) ((contrEquiv1 dot_S256x1024_S1024x64_S256x64_1_0_0_1_n_n 1024 rfl rfl).symm d) = ix2 p d := funext fun a => Fin.ext (by
    match a with
    | ⟨0, _⟩ => exact lhs_row _ _
    | ⟨1, _⟩ => exact (lhs_feat _ _).trans hd)
  have er : dot_S256x1024_S1024x64_S256x64_1_0_0_1_n_n.rhsIdx (ix2 p q) ((contrEquiv1 dot_S256x1024_S1024x64_S256x64_1_0_0_1_n_n 1024 rfl rfl).symm d) = ix2 d q := funext fun a => Fin.ext (by
    match a with
    | ⟨0, _⟩ => exact (rhs_feat _ _).trans hd
    | ⟨1, _⟩ => exact rhs_col _ _)
  rw [el, er]

/-! ## The sum over the layers -/

/-- The reduction over the block's leading axis, at (p, d): the sum of the 12 layers' entries there. -/
theorem layerSum_at (v0 : FVec Ideal S12x256x1024 .f32) (h : S12x256x1024.Reduces [0] S256x1024) (hφ : FKind.Formats .f32)
    (hacc : (0x00000000#32 : BitVec 32) = FKind.add.neutral .f32 hφ) (p : Fin 256) (d : Fin 1024) :
    multiReduction .add [0] S256x1024 v0 0x00000000#32 h hφ hacc (ix2 p d) = ∑ l : Fin 12, v0 (ix3 l p d) := by
  refine (Ideal.multiReduction_add_single v0 _ h hφ hacc (ix2 p d)).trans ?_
  refine Finset.sum_congr rfl fun l _ => ?_
  exact congrArg v0 (funext fun a => Fin.ext (by match a with | ⟨0, _⟩ => rfl | ⟨1, _⟩ => rfl | ⟨2, _⟩ => rfl))

/-! ## The stored value at an entry -/

/-- The body's one store at entry (p, q) of the output block, from the three loaded blocks. -/
theorem pay_apply (v0 : Vec Ideal S12x256x1024 .f32) (v5 : Vec Ideal S64x1024 .f32) (v9 : Vec Ideal S1x64 .f32)
    (p : Fin 256) (q : Fin 64) :
    k0_pay1 (F := Ideal) v0 v5 v9 (ix2 p q)
      = Ideal.tanh ((∑ d : Fin 1024, Ideal.div (∑ l : Fin 12, v0 (ix3 l p d)) twelve * v5 (ix2 q d))
          + v9 (ix2 (0 : Fin 1) q)) := by
  unfold k0_pay1
  show Ideal.tanh (matmul (F := Ideal) dot_S256x1024_S1024x64_S256x64_1_0_0_1_n_n none _ _ _ (ix2 p q) + broadcastTo S256x64 _ _ (ix2 p q)) = _
  refine congrArg Ideal.tanh (congrArg₂ (· + ·) ?_ ?_)
  · refine (blockProduct_at _ _ p q).trans (Finset.sum_congr rfl fun d _ => congrArg₂ (· * ·) ?_ ?_)
    · show Ideal.div (multiReduction (F := Ideal) (φ := .f32) .add [0] S256x1024 v0 0x00000000#32 _ _ _ (ix2 p d)) twelve = _
      exact congrArg (Ideal.div · twelve) (layerSum_at v0 _ _ _ p d)
    · exact transpose_ix2_apply _ _ d q
  · refine (broadcastTo_1b_ab_apply _ _ p q).trans ?_
    exact congrFun (shapeCast_self v9 _) _

/-- The stored value at (p, q) is the specification at (r, q), whenever the x block's row p holds the array's row r,
    the W block is W itself along row q, and the bias block's one row holds b. -/
theorem point_value (x : S12x8192x1024.Idx → EReal) (W : S64x1024.Idx → EReal) (b : S64.Idx → EReal)
    (v0 : Vec Ideal S12x256x1024 .f32) (v5 : Vec Ideal S64x1024 .f32) (v9 : Vec Ideal S1x64 .f32)
    (r : Fin 8192) (p : Fin 256) (q : Fin 64)
    (h0 : ∀ (l : Fin 12) (d : Fin 1024), v0 (ix3 l p d) = x (ix3 l r d))
    (h5 : ∀ d : Fin 1024, v5 (ix2 q d) = W (ix2 q d)) (h9 : v9 (ix2 (0 : Fin 1) q) = b (ix1 q)) :
    k0_pay1 (F := Ideal) v0 v5 v9 (ix2 p q) = G x W b (ix2 r q) := by
  rw [pay_apply, G_apply]
  simp only [layerMean, h0, h5, h9]

end Cert.KernelIdeal.Pay

end
-- ==== Proof.KernelValue.lean ====
/-
  From blocks to the whole array: after the run the kernel's result array is the specification `G` of the three
  arguments.

  The grid has 32 points. Point t reads rows 256 t … 256 t + 255 of x (all 12 layers, all 1024 features), the whole
  of W and the bias as one row (the host reshapes b to [1, 64] before the launch), and writes back rows
  256 t … 256 t + 255 of the [8192, 64] result. Row r of the result is therefore written by point r / 256, and the
  32 blocks tile the array.
-/
import proofs.«153851_j87497073754448_1_alg».proof.Proof.Gen.KernelIdeal.Value
import proofs.«153851_j87497073754448_1_alg».proof.Proof.KernelPay
import Idealize.ShloMosaic.Lib.StableHlo.Run
import Idealize.ShloMosaic.Lib.Tactic

noncomputable section

namespace Cert.KernelIdeal.Whole

open Cert.KernelIdeal Cert.KernelIdeal.Gen Cert.KernelIdeal.Value
open Idealize.ShloMosaic Idealize.ShloMosaic.TcCoe Idealize.SL.Sem
open Idealize.ShloMosaic.Pipeline (Dat)
open Idealize.ShloMosaic.ValueIdx Cert.LayerMeanProj

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The three argument arrays on core `c`, at their literal shapes. -/
abbrev xarr (c : Dev nD) : S12x8192x1024.Idx → EReal := m ((c : Thread nD τ).loc main_arg0)
abbrev warr (c : Dev nD) : S64x1024.Idx → EReal := m ((c : Thread nD τ).loc main_arg1)
abbrev barr (c : Dev nD) : S64.Idx → EReal := m ((c : Thread nD τ).loc main_arg2)

/-- The block index of every window at every point: x and the result move along the row axis with the point,
    W and the bias row stay at block (0, 0). -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks, read at an index -/

/-- Point t's x block at (l, p, d) is x at (l, 256 t + p, d). -/
theorem xblk_apply (c : Dev nD) (t : Fin cfg0.N) (y : S12x256x1024.Idx) (k : S12x8192x1024.Idx)
    (h0 : (k 0).val = (y 0).val) (h1 : (k 1).val = t.val * 256 + (y 1).val) (h2 : (k 2).val = (y 2).val) :
    (iblk m c 0 t : Vec Ideal S12x256x1024 .f32) y = xarr m c k := by
  obtain ⟨e0, e1, e2, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 3) * 12 + 1 * (y 0).val = (k 0).val; omega
  | ⟨1, _⟩ => show win0_0.index t (1 : Fin 3) * 256 + 1 * (y 1).val = (k 1).val; omega
  | ⟨2, _⟩ => show win0_0.index t (2 : Fin 3) * 1024 + 1 * (y 2).val = (k 2).val; omega

/-- Every point's W block is W. -/
theorem wblk_apply (c : Dev nD) (t : Fin cfg0.N) (y : S64x1024.Idx) :
    (iblk m c 1 t : Vec Ideal S64x1024 .f32) y = warr m c y := by
  obtain ⟨-, -, -, e3, e4, -⟩ := idx_facts t
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 2) * 64 + 1 * (y 0).val = (y 0).val; omega
  | ⟨1, _⟩ => show win0_1.index t (1 : Fin 2) * 1024 + 1 * (y 1).val = (y 1).val; omega

/-- The bias row as the region finds it: b laid out as one row of 64. -/
theorem V_bias (c : Dev nD) :
    (V m c main_v0 : S1x64.Idx → EReal) = shapeCast S1x64 (barr m c) shapeCasts_S64_S1x64 := by
  dsimp only [Gen.V, Gen.hostOps0]; after_results; rfl

/-- Every point's bias block at (0, q) is b at q. -/
theorem bblk_apply (c : Dev nD) (t : Fin cfg0.N) (q : Fin 64) :
    (iblk m c 2 t : Vec Ideal S1x64 .f32) (ix2 (0 : Fin 1) q) = barr m c (ix1 q) := by
  obtain ⟨-, -, -, -, -, e5, e6, -⟩ := idx_facts t
  unfold iblk
  rw [View.read_apply]
  show V m c main_v0 _ = _
  rw [V_bias]
  refine Eq.trans (congrArg _ (funext fun a => Fin.ext ?_)) (shapeCast_a_1a_apply (barr m c) shapeCasts_S64_S1x64 (0 : Fin 1) q)
  match a with
  | ⟨0, _⟩ => show win0_2.index t (0 : Fin 2) * 1 + 1 * 0 = 0; omega
  | ⟨1, _⟩ => show win0_2.index t (1 : Fin 2) * 64 + 1 * q.val = q.val; omega

/-! ## What a point writes back -/

/-- Point t writes back block t of `G` of the arguments. -/
theorem flushed_eq (c : Dev nD) (t : Fin cfg0.N) :
    (dats m 0 c).flushed 3 t
      = ((cfg0.win 3).blk t).view.read (Elt Ideal) (G (xarr m c) (warr m c) (barr m c)) := by
  rw [Value.flushed3]
  unfold out0_3
  rw [View.canon_unit_zero hz2]
  simp only [View.ld_unit_zero (S := S12x256x1024) hz3, View.ld_unit_zero (S := S64x1024) hz2,
    View.ld_unit_zero (S := S1x64) hz2]
  obtain ⟨-, -, -, -, -, -, -, e7, e8⟩ := idx_facts t
  have ht : t.val < 32 := by have h := t.isLt; have hN : cfg0.N = 32 := N_0; omega
  funext j
  obtain ⟨p, q, rfl⟩ : ∃ (p : Fin 256) (q : Fin 64), j = ix2 p q := ⟨j 0, j 1, eq_ix2 j⟩
  show k0_pay1 (F := Ideal) (iblk m c 0 t) (iblk m c 1 t) (iblk m c 2 t) (ix2 p q)
    = G (xarr m c) (warr m c) (barr m c) (((cfg0.win 3).blk t).view.emb (ix2 p q))
  have hp : p.val < 256 := p.isLt
  refine (Pay.point_value (xarr m c) (warr m c) (barr m c) (iblk m c 0 t) (iblk m c 1 t) (iblk m c 2 t)
    (⟨t.val * 256 + p.val, by omega⟩ : Fin 8192) p q ?_ ?_ ?_).trans ?_
  · intro l d
    exact xblk_apply m c t (ix3 l p d) (ix3 l _ d) rfl rfl rfl
  · intro d
    exact wblk_apply m c t (ix2 q d)
  · exact bblk_apply m c t q
  · refine congrArg (G (xarr m c) (warr m c) (barr m c)) (funext fun a => Fin.ext ?_)
    match a with
    | ⟨0, _⟩ => show t.val * 256 + p.val = win0_3.index t (0 : Fin 2) * 256 + 1 * p.val; omega
    | ⟨1, _⟩ => show q.val = win0_3.index t (1 : Fin 2) * 64 + 1 * q.val; omega

/-! ## The blocks tile the result -/

/-- An index of the result is in point t's block iff each coordinate is in the block's range on its axis. -/
theorem mem_blk (t : Fin cfg0.N) (i : S8192x64.Idx) :
    i ∈ ((cfg0.win 3).blk t).view.set ↔ ∀ a : Fin 2, win0_3.index t a * S256x64.size a ≤ (i a).val
      ∧ (i a).val < win0_3.index t a * S256x64.size a + S256x64.size a := by
  show i ∈ ((View.whole main_v1).slice (win0_3.rect t)).set ↔ _
  rw [View.set_slice_whole, Rect.mem_set_unit]
  exact Iff.rfl

/-- Row r of the result lies in the block of point r / 256, which writes back. -/
theorem cover (i : S8192x64.Idx) :
    ∃ t : Fin cfg0.N, (cfg0.win 3).flush t = true ∧ i ∈ ((cfg0.win 3).blk t).view.set := by
  have hi0 : (i 0).val < 8192 := (i 0).isLt
  have hi1 : (i 1).val < 64 := (i 1).isLt
  have hN : cfg0.N = 32 := N_0
  obtain ⟨t, ht⟩ : ∃ t : Fin cfg0.N, t.val = (i 0).val / 256 := ⟨⟨(i 0).val / 256, by omega⟩, rfl⟩
  obtain ⟨-, -, -, -, -, -, -, e7, e8⟩ := idx_facts t
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 64 ≤ (i 1).val ∧ (i 1).val < win0_3.index t (1 : Fin 2) * 64 + 64
    omega

/-! ## The result array, and the run -/

/-- After the run the result array is `G` of the three arguments. -/
theorem final (c : Dev nD) : (dats m 0 c).arrAt 3 cfg0.N = G (xarr m c) (warr m c) (barr m c) :=
  (dats m 0 c).arrAt_eq_of_cover 3 (G (xarr m c) (warr m c) (barr m c)) (fun t _ => flushed_eq m c t) cover

/-- Every weakly fair execution of the idealized kernel ends with the result at `G` of the arguments, the
    arguments unchanged. -/
theorem run : θ_run defs (onTc (τ := τ) (main (F := Ideal))) ⟨m, fun _ => 0, ρ⟩ fun r => ∀ c : Dev nD,
      r.2.mem ((c : Thread nD τ).loc main_v1) = G (xarr m c) (warr m c) (barr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  The kernel and its reference compute one function of (x, W, b) on the extended reals:

      out r k = tanh ( (∑ d, ((∑ l, x l r d) / 12) · W k d) + b k ),      r < 8192, k < 64.

  The kernel walks the 8192 rows in 32 blocks of 256. On each block it sums the 12 layers, divides by 12,
  multiplies the [256, 1024] mean by W transposed into a zero accumulator, adds the bias row and applies tanh;
  the narrowing of both factors of the product to a shorter float format is the identity on the extended reals.
  The reference does the same on the whole arrays: a sum over the leading axis, a division by 12, the contraction
  `bd,kd->bk`, the bias broadcast along the rows, tanh. Both sides divide by the same word for 12 and take the
  same sums in the same grouping, so the two terms agree entry by entry with no appeal to the inputs being
  finite: the precondition is never opened.

  The modules: `Spec` states the function `G`; `RefValue` reads the reference's stages at an index and finds `G`;
  `KernelPay` reads the kernel body's one store at an entry of its block; `KernelValue` reads each input block as
  rows of the arguments, shows point t writes back block t of `G`, that the 32 blocks tile the result, and so
  that the result array after the run is `G`. The three frames are the programs' runs with the value dropped;
  the idealization changed no operation, so nothing is owed for it.
-/
import proofs.«153851_j87497073754448_1_alg».proof.Defs
import proofs.«153851_j87497073754448_1_alg».proof.Proof.Gen.Kernel
import proofs.«153851_j87497073754448_1_alg».proof.Proof.Gen.Kernel.Skeleton
import proofs.«153851_j87497073754448_1_alg».proof.Proof.Gen.Kernel.Launch
import proofs.«153851_j87497073754448_1_alg».proof.Proof.Gen.Kernel.Points
import proofs.«153851_j87497073754448_1_alg».proof.Proof.Gen.Kernel.Frame
import proofs.«153851_j87497073754448_1_alg».proof.Proof.Gen.KernelIdeal
import proofs.«153851_j87497073754448_1_alg».proof.Proof.Gen.KernelIdeal.Skeleton
import proofs.«153851_j87497073754448_1_alg».proof.Proof.Gen.KernelIdeal.Launch
import proofs.«153851_j87497073754448_1_alg».proof.Proof.Gen.KernelIdeal.Points
import proofs.«153851_j87497073754448_1_alg».proof.Proof.Gen.KernelIdeal.Frame
import proofs.«153851_j87497073754448_1_alg».proof.Proof.Gen.ReferenceIdeal
import proofs.«153851_j87497073754448_1_alg».proof.Proof.Gen.Pre_finite_inputs
import proofs.«153851_j87497073754448_1_alg».proof.Proof.Gen.KernelIdeal.Value
import proofs.«153851_j87497073754448_1_alg».proof.Proof.Gen.ReferenceIdeal.Run
import proofs.«153851_j87497073754448_1_alg».proof.Proof.Gen.ReferenceIdeal.Read
import proofs.«153851_j87497073754448_1_alg».proof.Proof.Spec
import proofs.«153851_j87497073754448_1_alg».proof.Proof.RefValue
import proofs.«153851_j87497073754448_1_alg».proof.Proof.KernelPay
import proofs.«153851_j87497073754448_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x, W and b, the kernel's result array ends at `G` of its arguments (the blocks
    tile it) and the reference's last stage is `G` of the same arguments. -/
theorem algebraic : Cert.algebraic_KernelIdeal_ReferenceIdeal := by
  intro m ρ m' ρ' _ hagree
  refine ⟨fun c => Cert.LayerMeanProj.G (Cert.KernelIdeal.Whole.xarr m c) (Cert.KernelIdeal.Whole.warr m c)
    (Cert.KernelIdeal.Whole.barr m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
